-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S16384x128 : Shape := ⟨2, ![16384, 128]⟩
abbrev S16384 : Shape := ⟨1, ![16384]⟩
abbrev S16384x1 : Shape := ⟨2, ![16384, 1]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S1x1, .f32⟩
  | .hbm, ⟨3, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S16384 : S16384x128.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Payload.lean ====
/-
  What one grid point adds: the body's second store writes, into the 1 × 1 accumulator, the accumulator it loaded plus
  the sum of the point's 16384 × 128 block — the block summed along its 128 lanes, the column of 16384 row sums then
  summed along the rows.  Read at the ideal values this is `acc + ∑ r, ∑ l, block (r, l)`.  The first store (taken
  at the first point only) writes zero.
-/
import proofs.«109386_j78108275245110_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The lane sum of a block at row `r`: the sum of the row's 128 entries. -/
theorem lanes (h : S16384x128.Reduces [1] S16384) (hφ : FKind.Formats .f32)
    (hacc : (0x00000000#32 : BitVec 32) = FKind.add.neutral .f32 hφ) (x : S16384x128.Idx → Ideal .f32) (r : Fin 16384) :
    multiReduction (F := Ideal) .add [1] S16384 x 0x00000000#32 h hφ hacc (ix1 r) = ∑ l : Fin 128, x (ix2 r l) :=
  (Ideal.multiReduction_add_single x _ h hφ hacc (ix1 r)).trans
    (Finset.sum_congr rfl fun l _ => congrArg x (funext fun a => match a with
      | ⟨0, _⟩ => Fin.ext rfl
      | ⟨1, _⟩ => Fin.ext rfl))

/-- The sum along the rows of a one-lane column: the sum of its 16384 entries. -/
theorem rows (h : S16384x1.Reduces [0] S1) (hφ : FKind.Formats .f32)
    (hacc : (0x00000000#32 : BitVec 32) = FKind.add.neutral .f32 hφ) (y : S16384x1.Idx → Ideal .f32) (j : S1.Idx) :
    multiReduction (F := Ideal) .add [0] S1 y 0x00000000#32 h hφ hacc j = ∑ r : Fin 16384, y (ix2 r (0 : Fin 1)) :=
  (Ideal.multiReduction_add_single y _ h hφ hacc j).trans
    (Finset.sum_congr rfl fun r _ => congrArg y (funext fun a => match a with
      | ⟨0, _⟩ => Fin.ext rfl
      | ⟨1, _⟩ => Fin.ext (by
          have h1 : (j 0).val < 1 := (j 0).isLt
          show (j 0).val = 0
          omega)))

/-- The reset's payload is zero. -/
theorem pay1_apply (i : S1x1.Idx) : k0_pay1 (F := Ideal) i = 0 := by
  unfold k0_pay1
  show Ideal.ofBits .f32 0x00000000#32 = 0
  exact Ideal.ofBits_zero_f32

/-- The accumulating store's payload: the loaded accumulator plus the block's total. -/
theorem pay2_apply (x : S16384x128.Idx → Ideal .f32) (acc : S1x1.Idx → Ideal .f32) (i : S1x1.Idx) :
    k0_pay2 (F := Ideal) x acc i = acc i + ∑ r : Fin 16384, ∑ l : Fin 128, x (ix2 r l) := by
  unfold k0_pay2
  simp only [shapeCast_self]
  show acc i + shapeCast S1x1 _ _ i = _
  refine congrArg (acc i + ·) ?_
  refine (shapeCast_apply _ _ i (ix1 (0 : Fin 1)) ?_).trans ?_
  · rw [Shape.rowMajor_val_one, Shape.rowMajor_val_two]
    have h0 : (i 0).val < 1 := (i 0).isLt
    have h1 : (i 1).val < 1 := (i 1).isLt
    show (0 : ℕ) = (i 0).val * 1 + (i 1).val
    omega
  refine (rows _ _ _ _ _).trans (Finset.sum_congr rfl fun r _ => ?_)
  refine (shapeCast_apply _ _ (ix2 r (0 : Fin 1)) (ix1 r) ?_).trans (lanes _ _ _ _ r)
  rw [Shape.rowMajor_val_one, Shape.rowMajor_val_two]
  show r.val = r.val * 1 + 0
  omega

end Cert.KernelIdeal.Pay

end
-- ==== Proof.LibTiledSum.lean ====
/-
  A sum taken tile by tile over a padded, masked range — a general lemma, with no program in sight.

  A kernel that reduces B entries on a grid of n tiles of T entries each (B ≤ n·T) pads the range to n·T, masks the
  entries from B on to zero, sums each tile and adds the tiles' sums up.  In any commutative monoid (the extended
  reals among them: their addition commutes and associates) the result is the sum of the first B entries:
  `sum_tiles_masked`.  Under it, `sum_tiles_range`: n tiles of T consecutive numbers cover 0 … n·T − 1.  Also here,
  `sum_idx1`: a sum over a rank-one shape's indices is the sum over the coordinate.
-/
import Idealize.ShloMosaic.Lib.ValueIdx
import Mathlib.Algebra.BigOperators.Fin
import Mathlib.Logic.Equiv.Fin.Basic

noncomputable section

namespace Cert.LibTiledSum

open Idealize.ShloMosaic

/-! ## A sum over a vector's indices -/

/-- A vector's index is its one coordinate. -/
def idxEquiv1 {n : ℕ} : Fin n ≃ (⟨1, ![n]⟩ : Shape).Idx where
  toFun := ValueIdx.ix1
  invFun j := j 0
  left_inv _ := rfl
  right_inv j := (ValueIdx.eq_ix1 j).symm

/-- So a sum over a vector's indices is the sum over the coordinate. -/
theorem sum_idx1 {M : Type*} [AddCommMonoid M] {n : ℕ} (f : (⟨1, ![n]⟩ : Shape).Idx → M) :
    ∑ j, f j = ∑ b : Fin n, f (ValueIdx.ix1 b) :=
  (Equiv.sum_comp idxEquiv1 f).symm

/-! ## A sum taken tile by tile over a padded, masked range -/

/-- `n` tiles of `T` consecutive numbers cover `0 … n·T − 1`. -/
theorem sum_tiles_range {M : Type*} [AddCommMonoid M] (n T : ℕ) (f : ℕ → M) :
    ∑ i : Fin n, ∑ r : Fin T, f (i.val * T + r.val) = ∑ j ∈ Finset.range (n * T), f j := by
  calc ∑ i : Fin n, ∑ r : Fin T, f (i.val * T + r.val)
      = ∑ p : Fin n × Fin T, f (p.1.val * T + p.2.val) :=
        (Fintype.sum_prod_type' (fun (i : Fin n) (r : Fin T) => f (i.val * T + r.val))).symm
    _ = ∑ p : Fin n × Fin T, f ((finProdFinEquiv p).val) :=
        Finset.sum_congr rfl (fun p _ => by rw [finProdFinEquiv_apply_val, Nat.mul_comm, Nat.add_comm])
    _ = ∑ j : Fin (n * T), f j.val := Equiv.sum_comp finProdFinEquiv (fun j => f j.val)
    _ = ∑ j ∈ Finset.range (n * T), f j := Fin.sum_univ_eq_sum_range f (n * T)

/-- The tiles' sums of the entries below `B`, the others masked to zero, add up to the sum of the first `B`
    entries: the padded tail contributes nothing. -/
theorem sum_tiles_masked {M : Type*} [AddCommMonoid M] (n T B : ℕ) (hB : B ≤ n * T) (g : ℕ → M) :
    ∑ i : Fin n, ∑ r : Fin T, (if i.val * T + r.val < B then g (i.val * T + r.val) else 0)
      = ∑ b : Fin B, g b.val := by
  rw [sum_tiles_range n T (fun j => if j < B then g j else 0), Fin.sum_univ_eq_sum_range g B,
    ← Finset.sum_subset (Finset.range_subset_range.2 hB)
      (fun j _ hj => if_neg (fun h => hj (Finset.mem_range.2 h)))]
  exact Finset.sum_congr rfl (fun j hj => if_pos (Finset.mem_range.1 hj))

end Cert.LibTiledSum

end
-- ==== Proof.SumSpec.lean ====
/-
  The mathematics of the certificate, with no program in sight.

  A vector x of 2^25 extended reals is summed in two ways.  The reference adds all entries up: 0 + ∑ᵢ xᵢ.  The kernel
  views x as a 262144 × 128 matrix, row-major, cuts the rows into 16 tiles of 16384 rows, sums each tile (first along
  the 128 lanes, then along the 16384 rows) and adds the tile sums up one after the other, starting from zero.  Entry
  (t·16384 + r, l) of the matrix is entry (t·16384 + r)·128 + l of x, and these positions run through 0 … 2^25 − 1
  exactly once, so both are the same sum: addition of extended reals commutes and associates, and nothing else is used
  (no finiteness).
-/
import Idealize.ShloMosaic.Lib.ValueIdx
import Mathlib.Algebra.BigOperators.Fin
import proofs.«109386_j78108275245110_1_alg».proof.Proof.LibTiledSum

noncomputable section

open scoped BigOperators

namespace Cert.SumSpec

open Idealize.ShloMosaic Idealize.ShloMosaic.ValueIdx

/-- The flat vector's shape. -/
abbrev SFlat : Shape := ⟨1, ![33554432]⟩

/-- Three nested ranges A × B × C, read as the positions (t·B + r)·C + l, run through 0 … A·B·C − 1 once. -/
theorem sum_three {M : Type*} [AddCommMonoid M] (A B C : ℕ) (f : ℕ → M) :
    ∑ t : Fin A, ∑ r : Fin B, ∑ l : Fin C, f ((t.val * B + r.val) * C + l.val) = ∑ k : Fin (A * B * C), f k.val := by
  calc ∑ t : Fin A, ∑ r : Fin B, ∑ l : Fin C, f ((t.val * B + r.val) * C + l.val)
      = ∑ p ∈ Finset.range (A * B), ∑ l : Fin C, f (p * C + l.val) :=
        Cert.LibTiledSum.sum_tiles_range A B (fun p => ∑ l : Fin C, f (p * C + l.val))
    _ = ∑ p : Fin (A * B), ∑ l : Fin C, f (p.val * C + l.val) :=
        (Fin.sum_univ_eq_sum_range (fun p => ∑ l : Fin C, f (p * C + l.val)) (A * B)).symm
    _ = ∑ k ∈ Finset.range (A * B * C), f k := Cert.LibTiledSum.sum_tiles_range (A * B) C f
    _ = ∑ k : Fin (A * B * C), f k.val := (Fin.sum_univ_eq_sum_range f (A * B * C)).symm

/-- Entry `k` of the flat vector, zero past its end. -/
def entry (x : SFlat.Idx → EReal) (k : ℕ) : EReal := if h : k < 33554432 then x (ix1 ⟨k, h⟩) else 0

theorem entry_of_lt (x : SFlat.Idx → EReal) (k : ℕ) (h : k < 33554432) : entry x k = x (ix1 ⟨k, h⟩) := dif_pos h

/-- The sum of tile `t`: rows t·16384 … t·16384 + 16383 of the matrix, every lane. -/
def tile (x : SFlat.Idx → EReal) (t : ℕ) : EReal :=
  ∑ r : Fin 16384, ∑ l : Fin 128, entry x ((t * 16384 + r.val) * 128 + l.val)

/-- The sum of the first `n` tiles. -/
def upTo (x : SFlat.Idx → EReal) (n : ℕ) : EReal := ∑ t ∈ Finset.range n, tile x t

theorem upTo_one (x : SFlat.Idx → EReal) : upTo x 1 = 0 + tile x 0 := by
  unfold upTo; rw [Finset.sum_range_one, zero_add]

theorem upTo_succ (x : SFlat.Idx → EReal) (n : ℕ) : upTo x (n + 1) = upTo x n + tile x n :=
  Finset.sum_range_succ _ n

/-- All sixteen tiles together are the whole vector. -/
theorem upTo_all (x : SFlat.Idx → EReal) : upTo x 16 = ∑ i : SFlat.Idx, x i := by
  unfold upTo tile
  rw [← Fin.sum_univ_eq_sum_range (fun t => ∑ r : Fin 16384, ∑ l : Fin 128, entry x ((t * 16384 + r.val) * 128 + l.val)) 16,
    sum_three 16 16384 128 (entry x), Fin.sum_univ_eq_sum_range (entry x) (16 * 16384 * 128),
    show 16 * 16384 * 128 = 33554432 from by norm_num,
    ← Fin.sum_univ_eq_sum_range (entry x) 33554432, Cert.LibTiledSum.sum_idx1 x]
  exact Finset.sum_congr rfl fun k _ => entry_of_lt x k.val k.isLt

end Cert.SumSpec

end
-- ==== Proof.KernelValue.lean ====
/-
  What the idealized kernel computes, read off its frame run.

  The grid has sixteen points.  Point t stages rows t·16384 … t·16384 + 16383 of the 262144 × 128 matrix (the host's
  row-major reshape of the flat argument x), and the 1 × 1 output block stays resident in its staging buffer from
  point to point: it is written back after the last point only.  Point 0 stores zero, reads it back and stores
  zero + (its block's total); every later point stores (what the point before left) + (its block's total).  So after
  point n the buffer holds the sum of tiles 0 … n of x (`outsAt_eq`, by induction on the point), after point 15 the
  sum of all sixteen, which is the sum of every entry of x (`upTo_all`).  The one write-back puts it into the 1 × 1
  result array, whose block is the whole array, and the host's closing reshape to a scalar reads that entry.
-/
import proofs.«109386_j78108275245110_1_alg».proof.Defs
import proofs.«109386_j78108275245110_1_alg».proof.Proof.Gen.KernelIdeal.Frame
import proofs.«109386_j78108275245110_1_alg».proof.Proof.Payload
import proofs.«109386_j78108275245110_1_alg».proof.Proof.SumSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Val

open Cert.KernelIdeal Cert.KernelIdeal.Gen Cert.SumSpec Idealize.ShloMosaic.ValueIdx

theorem hz : (![0, 0] : Fin 2 → Nat) = fun _ => 0 := funext fun a => by fin_cases a <;> rfl

section Pieces

variable {F : FTy → Type} [FloatOps F]

/-- A later point (the reset not taken): the one store leaves the accumulating payload of the staged block and of
    what the output's buffer held. -/
theorem out_B (c : Dev nD) (i : grid0.Coords) (a1 : Memref sig .tc .vmem S16384x128 .f32) (h1 : a1.IsWhole)
    (a2 : Memref sig .tc .vmem S1x1 .f32) (h2 : a2.IsWhole) (hc : ¬cond0_0 i) (x : Vec F S16384x128 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S16384x128) hz,
    View.ld_unit_zero (S := S1x1) hz]

/-- The first point (the reset taken): zero is stored and read back, so the second store leaves the accumulating
    payload of the staged block and of zero. -/
theorem out_A (c : Dev nD) (i : grid0.Coords) (a1 : Memref sig .tc .vmem S16384x128 .f32) (h1 : a1.IsWhole)
    (a2 : Memref sig .tc .vmem S1x1 .f32) (h2 : a2.IsWhole) (hc : cond0_0 i) (x : Vec F S16384x128 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S16384x128) hz]

end Pieces

/-! ## The values, at the ideal instance -/

variable (m : (ℓ : Loc nD τ sig) → Buf (Elt Ideal) ℓ) (ρ : Dev nD → PrngReg)

/-- The flat argument on core `c`. -/
abbrev xin (c : Dev nD) : S33554432.Idx → Ideal .f32 := m ((c : Thread nD τ).loc main_arg0)

/-- The matrix the region stages from is the host's reshape of the flat argument. -/
theorem V_v0 (c : Dev nD) :
    (V m c main_v0 : S262144x128.Idx → Ideal .f32) = shapeCast S262144x128 (xin m c) shapeCasts_S33554432_S262144x128 := by
  show StableHlo.after hostOps0 (fun b => m (c, b)) (Proc.devRef .tc main_v0) = _
  after_results
  rfl

/-- Entry (R, l) of the matrix is entry R·128 + l of the flat argument: the same row-major position. -/
theorem V_v0_apply (c : Dev nD) (R : Fin 262144) (l : Fin 128) :
    (V m c main_v0 : S262144x128.Idx → Ideal .f32) (ix2 R l) = entry (xin m c) (R.val * 128 + l.val) := by
  have hk : R.val * 128 + l.val < 33554432 := by have := R.isLt; have := l.isLt; omega
  rw [V_v0, entry_of_lt _ _ hk]
  refine shapeCast_apply _ _ _ _ ?_
  rw [Shape.rowMajor_val_one, Shape.rowMajor_val_two]
  rfl

/-- The input window's block index at point `t` is (t, 0). -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block staged at point `t`, at (r, l): row t·16384 + r of the matrix, lane l. -/
theorem iblk_apply (c : Dev nD) (t : Fin cfg0.N) (r : Fin 16384) (l : Fin 128) :
    (iblk m c 0 t : S16384x128.Idx → Ideal .f32) (ix2 r l) = entry (xin m c) ((t.val * 16384 + r.val) * 128 + l.val) := by
  have hN : t.val < 16 := lt_of_lt_of_eq t.isLt N_0
  have hR : t.val * 16384 + r.val < 262144 := by have := r.isLt; omega
  rw [← V_v0_apply m c ⟨t.val * 16384 + r.val, hR⟩ l]
  unfold iblk
  rw [View.read_apply]
  show V m c main_v0 _ = V m c main_v0 _
  congr 1
  funext a
  apply Fin.ext
  match a with
  | ⟨0, _⟩ => show win0_0.index t 0 * 16384 + 1 * r.val = t.val * 16384 + r.val; rw [(idx_facts t).1]; omega
  | ⟨1, _⟩ => show win0_0.index t 1 * 128 + 1 * l.val = l.val; rw [(idx_facts t).2]; omega

/-- The block staged at point `t`, as a 16384 × 128 array of extended reals. -/
abbrev xblk (c : Dev nD) (t : Fin cfg0.N) : S16384x128.Idx → Ideal .f32 := iblk m c 0 t

/-- So the block's total is tile `t` of the flat argument. -/
theorem block_total (c : Dev nD) (t : Fin cfg0.N) :
    ∑ r : Fin 16384, ∑ l : Fin 128, xblk m c t (ix2 r l) = tile (xin m c) t.val :=
  Finset.sum_congr rfl fun r _ => Finset.sum_congr rfl fun l _ => iblk_apply m c t r l

/-- THE RUNNING SUM: after point `n` the output's staging buffer holds the sum of tiles 0 … n. -/
theorem outsAt_eq (c : Dev nD) : ∀ (n : ℕ) (h : n < cfg0.N) (i : S1x1.Idx),
    (outsAt0 m c n h : S1x1.Idx → Ideal .f32) i = upTo (xin m c) (n + 1)
  | 0, h, i => by
    rw [outsAt0_A m c ⟨0, h⟩ rfl, out_A, Pay.pay2_apply, Pay.pay1_apply, upTo_one]
    exact congrArg (0 + ·) (block_total m c ⟨0, h⟩)
  | n + 1, h, i => by
    have hN : cfg0.N = 16 := N_0
    have hB : ¬(⟨n + 1, h⟩ : Fin cfg0.N).val % 16 = 0 := by dsimp only; omega
    rw [outsAt0_B m c ⟨n + 1, h⟩ hB, out_B, Pay.pay2_apply, upTo_succ]
    show (outsAt0 m c n _ : S1x1.Idx → Ideal .f32) i + _ = _
    rw [outsAt_eq c n _ i]
    exact congrArg (upTo (xin m c) (n + 1) + ·) (block_total m c ⟨n + 1, h⟩)

/-- The result array's contents after the run: its one entry is the sum of every entry of the flat argument. -/
abbrev total (c : Dev nD) : Ideal .f32 := ∑ i, xin m c i
abbrev result (c : Dev nD) : Buf (Elt Ideal) ((c : Thread nD τ).loc main_v1) := fun _ => total m c

/-- The one write-back, at point 15, writes it. -/
theorem flushed_eq (c : Dev nD) (t : Fin cfg0.N) (hf : (cfg0.win 1).flush t = true) :
    (dats m 0 c).flushed 1 t = ((cfg0.win 1).blk t).view.read (Elt Ideal) (result m c) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  rw [after0_1]
  have e : (outsAt0 m c t0_15.val t0_15.isLt : S1x1.Idx → Ideal .f32) = result m c :=
    funext fun i => (outsAt_eq m c t0_15.val t0_15.isLt i).trans (upTo_all (xin m c))
  rw [e]
  have hz' : (fun a => win0_1.index t0_15 a * main_v1.ty.shape.size a) = fun _ => 0 :=
    funext fun a => by fin_cases a <;> decide +kernel
  exact (Memref.read_access_unit_zero (Elt Ideal) main_v1 hz' (fun a => by rw [congrFun hz' a]; simp) (result m c)).symm

/-- So the result array ends holding it: the last point's block is the whole 1 × 1 array. -/
theorem final_o (c : Dev nD) : (dats m 0 c).arrAt 1 cfg0.N = result m c :=
  (dats m 0 c).arrAt_eq_of_cover 1 (result m c) (flushed_eq m c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The host's closing reshape of the 1 × 1 array to a scalar reads its one entry. -/
theorem tail_eq (c : Dev nD) :
    Pipeline.afterTail₀ cfgs (dats m) 0 (V0 m) [hostOps1] c main_v2 = fun _ => total m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c :=
    (Pipeline.withArrays_arr spec0 launch0.win.arr_inj c _ _ 1).trans (final_o m c)
  funext j
  show shapeCast S_ (Pipeline.withArrays (cfgs 0).spec c (V0 m c) (fun w => (dats m 0 c).arrAt w (cfgs 0).N)
    (Proc.devRef .tc main_v1)) shapeCasts_S1x1_S_ j = _
  rw [e]
  rfl

/-- THE RUN, READ: the scalar result is the sum of every entry of the flat argument, which is left alone. -/
theorem run : θ_run defs (onTc (τ := τ) (main (F := Ideal))) ⟨m, fun _ => 0, ρ⟩ fun r => ∀ c : Dev nD,
      r.2.mem ((c.tc : Thread nD τ).loc main_v2) = (fun _ => total m c)
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Val

end
-- ==== Proof.RefValue.lean ====
/-
  What the idealized reference computes: jnp.sum of the flat vector is the host's add-reduction over its one axis from
  the initial value zero, which at the ideal values is 0 + ∑ᵢ xᵢ — the plain sum of every entry.
-/
import proofs.«109386_j78108275245110_1_alg».proof.Defs
import proofs.«109386_j78108275245110_1_alg».proof.Proof.Gen.ReferenceIdeal.Run
import proofs.«109386_j78108275245110_1_alg».proof.Proof.Gen.ReferenceIdeal.Read

noncomputable section

open scoped BigOperators

namespace Cert.ReferenceIdeal.RefValue

open Cert.ReferenceIdeal Cert.ReferenceIdeal.Gen Idealize.ShloMosaic

/-- The reference's result term is the constant scalar ∑ᵢ xᵢ. -/
theorem result_eq (x : S33554432.Idx → Ideal .f32) :
    Host.reduceAdd (F := Ideal) x (constant S_ .f32 0x00000000#32) reducesTo_S33554432_S_d0 h_S_ = fun _ => ∑ i, x i := by
  rw [Cert.ReferenceIdeal.Read.val_main_v0_eq]
  funext i
  rw [Cert.ReferenceIdeal.Read.val_main_v0_apply, Cert.ReferenceIdeal.Read.val_main_cst_apply]
  show Ideal.ofBits .f32 0x00000000#32 + _ = _
  rw [Ideal.ofBits_zero_f32, zero_add]

end Cert.ReferenceIdeal.RefValue

end
-- ==== Proof.lean ====
/-
  The certificate: a Pallas kernel that sums a vector of 2^25 floats tile by tile on a grid of sixteen points, against
  jnp.sum of the vector.

  Over the extended reals both are the sum of every entry.  The reference is the host's add-reduction from zero,
  0 + ∑ᵢ xᵢ (Proof/RefValue.lean).  The kernel views the vector as a 262144 × 128 matrix, and at grid point t adds the
  total of rows t·16384 … t·16384 + 16383 (lanes first, then rows) to an accumulator it zeroed at point 0; after the
  last point the accumulator is ∑ₜ ∑ᵣ ∑ₗ x[(t·16384 + r)·128 + l] (Proof/Payload.lean, Proof/KernelValue.lean), and
  the positions (t·16384 + r)·128 + l run through 0 … 2^25 − 1 exactly once (Proof/SumSpec.lean).  Only commutativity
  and associativity of addition are used, which hold at the infinities too, so the precondition (finite inputs) is
  never opened.  The ideal pass rewrote nothing, so the kernel's idealization is its own text.
-/
import proofs.«109386_j78108275245110_1_alg».proof.Defs
import proofs.«109386_j78108275245110_1_alg».proof.Proof.Gen.Kernel
import proofs.«109386_j78108275245110_1_alg».proof.Proof.Gen.Kernel.Frame
import proofs.«109386_j78108275245110_1_alg».proof.Proof.Gen.KernelIdeal
import proofs.«109386_j78108275245110_1_alg».proof.Proof.Gen.KernelIdeal.Frame
import proofs.«109386_j78108275245110_1_alg».proof.Proof.Gen.ReferenceIdeal
import proofs.«109386_j78108275245110_1_alg».proof.Proof.Gen.ReferenceIdeal.Run
import proofs.«109386_j78108275245110_1_alg».proof.Proof.Gen.Pre_finite_inputs
import proofs.«109386_j78108275245110_1_alg».proof.Proof.KernelValue
import proofs.«109386_j78108275245110_1_alg».proof.Proof.RefValue
import Idealize.ShloMosaic.Adequacy
import Idealize.ShloMosaic.Init

noncomputable section

open scoped BigOperators

namespace Cert.Proof

open Idealize.ShloMosaic Idealize.SL.Sem

/-- The kernel as printed runs and leaves its argument alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the scalar ∑ᵢ xᵢ of arguments that agree. -/
theorem algebraic : Cert.algebraic_KernelIdeal_ReferenceIdeal := by
  intro m ρ m' ρ' _ hagree
  refine ⟨fun c _ => Cert.KernelIdeal.Val.total m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
